-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .bf16⟩
  | .local _ .vmem, ⟨0, _⟩ => ⟨S256x256, .f32⟩
  | .local _ .vmem, ⟨1, _⟩ => ⟨S512x256, .bf16⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v10 : BitVec 32 := Scalar.muli v2 c256_i32
  let v11 : Index := Scalar.indexCast v10
  let c0_4 : Index := 0#32
  ![v11.toNat, 0]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6 : BitVec 32 := 2#32
  let v14 : BitVec 32 := Scalar.muli v6 c2_i32_6
  let v15 : BitVec 32 := Scalar.addi c0_i32 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7 : BitVec 32 := 1#32
  let v16 : BitVec 32 := Scalar.muli v5 c1_i32_7
  let v17 : BitVec 32 := Scalar.addi v15 v16
  v17.toNat
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_10 : BitVec 32 := 256#32
  let v19 : BitVec 32 := Scalar.muli v2 c256_i32_10
  let c0_i32_14 : BitVec 32 := 0#32
  ![v19.toNat, 0]
def k0_dev2 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v20 : BitVec 32 := Scalar.muli v6 c2_i32_11
  let v21 : BitVec 32 := Scalar.addi c0_i32_12 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v22 : BitVec 32 := Scalar.muli v5 c1_i32_13
  let v23 : BitVec 32 := Scalar.addi v21 v22
  v23.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  hamt_1 : (1#32 : BitVec 32).msb = false
  hcc0_scratch0 : 2 + S_.numel ≤ 4
  hcc0_scratch1 : 3 + S_.numel ≤ 4
  k0_off1_inb : ∀ d0 : Dev nD, ∀ a, (k0_off1 d0) a + S256x256.size a ≤ S512x256.size a
  k0_off1_packedbf16 : ∀ d0 : Dev nD, (Rect.unit (s := S512x256) (k0_off1 d0) S256x256.size (k0_off1_inb d0)).PackedRows (EltTy.packing .bf16)
  k0_dev1_lt : ∀ d0 : Dev nD, (k0_dev1 d0) < nD
  k0_off2_inb : ∀ d0 : Dev nD, ∀ a, (k0_off2 d0) a + S256x256.size a ≤ S512x256.size a
  k0_off2_wordsbf16 : ∀ d0 : Dev nD, (Rect.unit (s := S512x256) (k0_off2 d0) S256x256.size (k0_off2_inb d0)).WholeWords (EltTy.packing .bf16)
  k0_dev2_lt : ∀ d0 : Dev nD, (k0_dev2 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S_ := SemArray.consecutive 3 S_ hcc0_scratch1

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩

abbrev nBuf : Space → Nat
  | .hbm => 2
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelProto.lean ====
/-
  The all-gather's protocol on the 2 x 2 mesh, at any float instance (the program as printed and its idealization
  are the same text: what is said here holds of either).

  Device c = (x, y) holds block x of the input (256 rows). Its 512-row result buffer is two blocks of 256 rows:
  it converts its own block into rows [256 x, 256 x + 256), tells its column mate peer c = (1 - x, y) — on the
  runtime's barrier semaphore — that it is inside the kernel, waits for the same word from the mate, copies its own
  rows into the SAME rows of the mate's result buffer, and waits for its send and for the mate's block to land in
  its other rows. So every device ends with block 0 in rows [0, 256) and block 1 in rows [256, 512).

  This module: the column swap peer, the two row rectangles and that they tile the buffer, the final contents
  outAt c of device c's result buffer as a function of the two input blocks, and the schedule of the three
  semaphores a device waits on (barrier, send, receive: one duty each, round 0) with what each landing hands over.
-/
import proofs.«900082_g7700000000000083_dist_ag_v7x_xy2x2_x_m256_n256_bf16_1_alg».proof.Proof.Gen.Kernel
import proofs.«900082_g7700000000000083_dist_ag_v7x_xy2x2_x_m256_n256_bf16_1_alg».proof.Proof.Gen.Kernel.Skeleton
import proofs.«900082_g7700000000000083_dist_ag_v7x_xy2x2_x_m256_n256_bf16_1_alg».proof.Proof.Gen.Kernel.Launch
import proofs.«900082_g7700000000000083_dist_ag_v7x_xy2x2_x_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Ag

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, both with duties Unit -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The column swap -/

/-- Device c = 2 x + y swaps with 2 (1 - x) + y: the other row of the mesh, the same column. -/
def peer (c : Dev nD) : Dev nD := ⟨(c.val % 2 + 2) - 2 * (c.val / 2), by have : c.val < 4 := c.isLt; show _ < 4; omega⟩

theorem peer_peer (c : Dev nD) : peer (peer c) = c := by revert c; decide
theorem peer_ne (c : Dev nD) : peer c ≠ c := by revert c; decide

/-- The kernel's two device chains (the signal's, the copy's) name peer c. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs and cells -/

abbrev xM : Memref sig .tc .vmem S256x256 .f32 := Memref.whole cc0_stg0_0
abbrev oM : Memref sig .tc .vmem S512x256 .bf16 := Memref.whole cc0_stg1_0

/-- The rows of block d in a result buffer: the rectangle the kernel on device d slices for its copy. -/
abbrev rowsOf (d : Dev nD) : Rect S512x256 := Rect.unit (s := S512x256) (k0_off2 d) S256x256.size (k0_off2_inb d)
abbrev slc (d : Dev nD) : Memref sig .tc .vmem S256x256 .bf16 := oM.slice (rowsOf d) (fun _ => rfl)

/-- The runtime's barrier semaphore of collective id 0 (unscoped), the send and receive DMA semaphores (scoped scratch). -/
abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one block's copy (it depends on the buffer, the block's shape and the element type only). -/
abbrev N : ℕ := (slc (0 : Dev nD)).view.dmaCredit
theorem N_pos : 0 < N := View.dmaCredit_pos _ (by decide)

/-! ## The two row rectangles tile the buffer -/

theorem rows_disjoint (c : Dev nD) : Disjoint (rowsOf c).set (rowsOf (peer c)).set := by
  refine Rect.unit_disjoint (0 : Fin 2) ?_
  rw [k0_off2_eq c, k0_off2_eq (peer c)]
  revert c; decide

theorem rows_union (c : Dev nD) : (rowsOf c).set ∪ (rowsOf (peer c)).set = Finset.univ := by
  ext i
  simp only [Finset.mem_union, Finset.mem_univ, iff_true, Rect.mem_set_unit, k0_off2_eq]
  have h0 : (i 0).val < 512 := (i 0).isLt
  have h1 : (i 1).val < 256 := (i 1).isLt
  have hc : c.val < 4 := c.isLt
  by_cases hlo : (i 0).val < 256
  · by_cases hx : c.val / 2 = 0
    · left; intro a; fin_cases a
      · simp only [hx]; constructor <;> simp <;> omega
      · constructor <;> simp <;> omega
    · right; intro a; fin_cases a
      · have : (peer c).val / 2 = 0 := by unfold peer; simp only; omega
        simp only [this]; constructor <;> simp <;> omega
      · constructor <;> simp <;> omega
  · by_cases hx : c.val / 2 = 1
    · left; intro a; fin_cases a
      · simp only [hx]; constructor <;> simp <;> omega
      · constructor <;> simp <;> omega
    · right; intro a; fin_cases a
      · have : (peer c).val / 2 = 1 := by unfold peer; simp only; omega
        simp only [this]; constructor <;> simp <;> omega
      · constructor <;> simp <;> omega

/-! ## Contents -/

/-- Device c's input block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Block d of the result: device d's input block, converted. -/
def pay (d : Dev nD) : S256x256.Idx → Elt F .bf16 := k0_pay1 (xstg m ρ d)

/-- Contents g of a result buffer with block d written into its rows. -/
def blk (d : Dev nD) (g : (cc0_stg1_0 : Ref sig .tc).ty.Contents (Elt F)) : (cc0_stg1_0 : Ref sig .tc).ty.Contents (Elt F) :=
  (slc d).view.write (Elt F) g (pay m ρ d) Finset.univ

/-- Some contents to write the two blocks over (every element is overwritten: which contents is immaterial). -/
def base (c : Dev nD) : (cc0_stg1_0 : Ref sig .tc).ty.Contents (Elt F) := fun _ => pay m ρ c (Shape.Idx.first h_S256x256)

/-- The final contents of device c's result buffer: its own block in its rows, its mate's block in the mate's. -/
def outAt (c : Dev nD) : (cc0_stg1_0 : Ref sig .tc).ty.Contents (Elt F) := blk m ρ (peer c) (blk m ρ c (base m ρ c))

omit [FloatOps F] in
theorem slc_set (d : Dev nD) : (slc d).view.set = (rowsOf d).set := View.set_slice_whole _ _

/-- On block d's rows, writing block d gives the same whatever it is written over; -/
theorem blk_congr (d : Dev nD) (g g' : (cc0_stg1_0 : Ref sig .tc).ty.Contents (Elt F)) {i : (cc0_stg1_0 : Ref sig .tc).ty.Idx}
    (hi : i ∈ (slc d).view.set) : blk m ρ d g i = blk m ρ d g' i :=
  View.write_congr (fun _ _ _ => rfl) (fun h => absurd hi h)

/-- off them nothing changes. -/
theorem blk_off (d : Dev nD) (g : (cc0_stg1_0 : Ref sig .tc).ty.Contents (Elt F)) {i : (cc0_stg1_0 : Ref sig .tc).ty.Idx}
    (hi : i ∉ (slc d).view.set) : blk m ρ d g i = g i :=
  View.write_of_not_mem _ _ _ hi

omit [FloatOps F] in
theorem not_mem_peer {c : Dev nD} {i : (cc0_stg1_0 : Ref sig .tc).ty.Idx} (hi : i ∈ (slc c).view.set) : i ∉ (slc (peer c)).view.set := by
  rw [slc_set] at hi ⊢
  exact Finset.disjoint_left.mp (rows_disjoint c) hi

/-- On its own rows device c's final contents are its block written over anything, -/
theorem outAt_own (c : Dev nD) (g : (cc0_stg1_0 : Ref sig .tc).ty.Contents (Elt F)) {i : (cc0_stg1_0 : Ref sig .tc).ty.Idx}
    (hi : i ∈ (slc c).view.set) : outAt m ρ c i = blk m ρ c g i := by
  unfold outAt
  rw [blk_off m ρ (peer c) _ (not_mem_peer hi)]
  exact blk_congr m ρ c _ _ hi

/-- and so are its mate's there: the two devices end with the same rows of block c. -/
theorem outAt_peer_own (c : Dev nD) (g : (cc0_stg1_0 : Ref sig .tc).ty.Contents (Elt F)) {i : (cc0_stg1_0 : Ref sig .tc).ty.Idx}
    (hi : i ∈ (slc c).view.set) : outAt m ρ (peer c) i = blk m ρ c g i := by
  unfold outAt
  rw [peer_peer]
  exact blk_congr m ρ c _ _ hi

/-! ## Rows of a result buffer, as assertions -/

/-- Block d's rows of device c's result buffer, at contents f. -/
def rowsPts (c d : Dev nD) (f : Buf (Elt F) ((slc d).view.loc (c : Thread nD τ))) : sProp 𝕄 :=
  (slc d).view.loc (c : Thread nD τ) ↦[(slc d).view.set]{fullShare} f
/-- The same at some contents, -/
def somePts (c d : Dev nD) : sProp 𝕄 := iprop(∃ f, rowsPts c d f)
/-- and at the final contents. -/
def finPts (c d : Dev nD) : sProp 𝕄 := rowsPts c d (outAt m ρ c)

omit [FloatOps F] in
instance rowsPts_storable (c d : Dev nD) (f) : BI.Storable (upEmb : UEmb _ 𝕄) (rowsPts (F := F) c d f) := by unfold rowsPts; infer_instance
omit [FloatOps F] in
instance somePts_storable (c d : Dev nD) : BI.Storable (upEmb : UEmb _ 𝕄) (somePts (F := F) c d) := by unfold somePts; infer_instance
instance finPts_storable (c d : Dev nD) : BI.Storable (upEmb : UEmb _ 𝕄) (finPts (F := F) m ρ c d) := by unfold finPts; infer_instance

omit [FloatOps F] in
/-- Rows at contents that agree on them are the same assertion. -/
theorem rowsPts_congr (c d : Dev nD) {f g : Buf (Elt F) ((slc d).view.loc (c : Thread nD τ))} (h : ∀ i ∈ (slc d).view.set, f i = g i) :
    rowsPts (F := F) c d f = rowsPts c d g := by
  unfold rowsPts; exact BI.Region.is_congr h

/-! ## The schedule -/

/-- What peer c's signal hands c: the rows of peer c's buffer that c's block lands in, and that peer c has reached
    round 0 of its receive cell. -/
def barPay (c : Dev nD) : sProp 𝕄 := iprop(somePts (peer c) c ∗ reached ER (recvCell (peer c)) 0)
/-- What the copy's landing hands c: its mate's rows of its buffer at their final contents; -/
def recvPay (c : Dev nD) : sProp 𝕄 := finPts m ρ c (peer c)
/-- what its departure hands back: c's own rows, as final. -/
def sendPay (c : Dev nD) : sProp 𝕄 := finPts m ρ c c

abbrev IsProto (g : GSem nD τ sig) : Prop := g.1.2 = .tc ∧ (g.2 = .reg barS ∨ g.2 = .dma sendS.sem ∨ g.2 = .dma recvS.sem)

/-- One round, round 0: each of a device's three cells has one duty — the barrier's one unit, the send's and the
    receive's the block's credit. -/
def agRd : Rounds.Schedule (GSem nD τ sig) Unit 𝕄 where
  duties g r := if r = 0 ∧ IsProto g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance agRd_payload_storable (g : GSem nD τ sig) (r : ℕ) (d : Unit) : BI.Storable (upEmb : UEmb _ 𝕄) ((agRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (agRd (F := F) m ρ).duties (barCell c) 0 = {()} := by dsimp only [agRd]; exact if_pos ⟨rfl, rfl, .inl rfl⟩
theorem duties_send : (agRd (F := F) m ρ).duties (sendCell c) 0 = {()} := by dsimp only [agRd]; exact if_pos ⟨rfl, rfl, .inr (.inl rfl)⟩
theorem duties_recv : (agRd (F := F) m ρ).duties (recvCell c) 0 = {()} := by dsimp only [agRd]; exact if_pos ⟨rfl, rfl, .inr (.inr rfl)⟩
theorem duties_later (g : GSem nD τ sig) : ∀ r, 1 ≤ r → (agRd (F := F) m ρ).duties g r = ∅ :=
  fun r hr => by dsimp only [agRd]; rw [if_neg fun h => by omega]

theorem amount_bar (u : Unit) : (agRd (F := F) m ρ).amount (barCell c) 0 u = 1 := by dsimp only [agRd]; exact if_pos rfl
theorem amount_send (u : Unit) : (agRd (F := F) m ρ).amount (sendCell c) 0 u = N := by dsimp only [agRd]; exact if_neg send_ne_bar
theorem amount_recv (u : Unit) : (agRd (F := F) m ρ).amount (recvCell c) 0 u = N := by dsimp only [agRd]; exact if_neg recv_ne_bar

theorem expect_bar : (agRd (F := F) m ρ).expect (barCell c) 0 = 1 := by
  unfold Schedule.expect Schedule.amountOf; rw [duties_bar, Finset.sum_singleton, amount_bar]
theorem expect_send : (agRd (F := F) m ρ).expect (sendCell c) 0 = N := by
  unfold Schedule.expect Schedule.amountOf; rw [duties_send, Finset.sum_singleton, amount_send]
theorem expect_recv : (agRd (F := F) m ρ).expect (recvCell c) 0 = N := by
  unfold Schedule.expect Schedule.amountOf; rw [duties_recv, Finset.sum_singleton, amount_recv]

theorem payload_bar (u : Unit) : (agRd (F := F) m ρ).payload (barCell c) 0 u = barPay c := by dsimp only [agRd]; exact if_pos rfl
theorem payload_send (u : Unit) : (agRd (F := F) m ρ).payload (sendCell c) 0 u = sendPay m ρ c := by
  dsimp only [agRd]; rw [if_neg send_ne_bar, if_neg send_ne_recv, if_pos rfl]
theorem payload_recv (u : Unit) : (agRd (F := F) m ρ).payload (recvCell c) 0 u = recvPay m ρ c := by
  dsimp only [agRd]; rw [if_neg recv_ne_bar, if_pos rfl]

theorem rest_bar : bigSep ((agRd (F := F) m ρ).duties (barCell c) 0 \ ∅) (fun u => (agRd (F := F) m ρ).payload (barCell c) 0 u) = barPay c := by
  rw [Finset.sdiff_empty, duties_bar, bigSep_singleton, payload_bar]
theorem rest_send : bigSep ((agRd (F := F) m ρ).duties (sendCell c) 0 \ ∅) (fun u => (agRd (F := F) m ρ).payload (sendCell c) 0 u) = sendPay m ρ c := by
  rw [Finset.sdiff_empty, duties_send, bigSep_singleton, payload_send]
theorem rest_recv : bigSep ((agRd (F := F) m ρ).duties (recvCell c) 0 \ ∅) (fun u => (agRd (F := F) m ρ).payload (recvCell c) 0 u) = recvPay m ρ c := by
  rw [Finset.sdiff_empty, duties_recv, bigSep_singleton, payload_recv]

end Sched

/-! ## What each core owes at launch; the levels -/

/-- Device c owes its mate's receive cell the block's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its mate's receive credit only: a receive cell, above its barrier cell. -/
theorem mayWait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Ag

end
-- ==== Proof.KernelBody.lean ====
/-
  One device's body of the all-gather, stepped once at a symbolic device c: the conversion of its block into its
  rows of the result buffer, the handshake with its column mate on the barrier semaphore, the copy of its rows into
  the mate's buffer, and the waits for its send and for the mate's rows to land; from the protocol's ghost state to
  the result buffer whole at its final contents.
-/
import proofs.«900082_g7700000000000083_dist_ag_v7x_xy2x2_x_m256_n256_bf16_1_alg».proof.Proof.KernelProto

noncomputable section

namespace Cert.Kernel.Ag

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The cells' invariants device c's body opens, under the names K the launch allocated them at: its own three,
    its mate's barrier cell (its signal) and receive cell (its copy). -/
def invs (K : Dev nD × Fin 3 → ℕ) (c : Dev nD) : sProp 𝕄 :=
  iprop(cellInv ER (agRd m ρ) (K (c, 0)) (barCell c) ∗ cellInv ER (agRd m ρ) (K (c, 1)) (sendCell c) ∗ cellInv ER (agRd m ρ) (K (c, 2)) (recvCell c)
    ∗ cellInv ER (agRd m ρ) (K (peer c, 0)) (barCell (peer c)) ∗ cellInv ER (agRd m ρ) (K (peer c, 2)) (recvCell (peer c)))

instance invs_persistent (K : Dev nD × Fin 3 → ℕ) (c : Dev nD) : BI.Persistent (invs m ρ K c) := by unfold invs; infer_instance

/-- The tokens of the duties device c pays: its mate's barrier duty, its mate's receive duty, its own send duty. -/
def payToks (c : Dev nD) : sProp 𝕄 := iprop(dutyTok ER (barCell (peer c)) 0 () ∗ dutyTok ER (recvCell (peer c)) 0 () ∗ dutyTok ER (sendCell c) 0 ())

/-- The protocol's ghost state device c starts from. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device c's body starts from: that at some names, its two credit tokens (its barrier's unit, its receive
    cell's credit) and the level facts. -/
def start (c : Dev nD) : sProp 𝕄 := iprop((∃ K, ghost m ρ K c) ∗ cred (tallyAt (barCell c) () 1) ∗ cred (tallyAt (recvCell c) () N) ∗ levAts L lv)

def Φ₀ (c : Dev nD) : sProp 𝕄 := start m ρ c
/-- After the point: the two OWN cells at zero, closed (the barrier cell is the runtime's: nothing to hand back). -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer's points-to, spelt through the whole memref's view. -/
theorem whole_pts (c : Dev nD) (b : Ref sig .tc) (f : Buf (Elt F) (((c : Dev nD) : Thread nD τ).loc b)) :
    ((((c : Thread nD τ).loc b) ↦{fullShare} f) : sProp 𝕄)
      = ((Memref.whole b : Memref sig .tc _ _ _).view.loc (c : Thread nD τ) ↦[(Memref.whole b : Memref sig .tc _ _ _).view.set]{fullShare} f) := by
  show _ = (View.loc (c : Thread nD τ) (View.whole b) ↦[(View.whole b).set]{fullShare} f)
  rw [View.set_whole]

/-! ## What the stores and the copy leave, against the final contents -/

omit [FloatOps F] in
theorem hz : (![0, 0] : Fin 2 → Nat) = fun _ => 0 := funext fun a => by fin_cases a <;> rfl

theorem off1_eq_off2 (c : Dev nD) : k0_off1 c = k0_off2 c := (k0_off1_eq c).trans (k0_off2_eq c).symm

/-- What the conversion's store leaves in device c's buffer over contents g: block c written into its rows. -/
theorem stored_eq (c : Dev nD) (g : (cc0_stg1_0 : Ref sig .tc).ty.Contents (Elt F)) :
    (oM : Memref sig .tc .vmem S512x256 .bf16).view.writes (Elt F) g
      [⟨Rect.unit (s := S512x256) (k0_off1 c) S256x256.size (k0_off1_inb c),
        k0_pay1 (View.readAt (Elt F) (xM : Memref sig .tc .vmem S256x256 .f32).view
          (Rect.unit (s := S256x256) ![0, 0] S256x256.size inb_S256x256_S256x256_0_0).toLoadRect (xstg m ρ c))⟩]
      = blk m ρ c g := by
  have hr : View.readAt (Elt F) (xM : Memref sig .tc .vmem S256x256 .f32).view
      (Rect.unit (s := S256x256) ![0, 0] S256x256.size inb_S256x256_S256x256_0_0).toLoadRect (xstg m ρ c) = xstg m ρ c :=
    Memref.readAt_unit_zero (Elt F) cc0_stg0_0 hz _ _
  rw [View.writes_singleton, hr]
  have key : ∀ (o o' : Fin 2 → Nat) (h : o = o') (p : ∀ a, o a + S256x256.size a ≤ S512x256.size a) (p' : ∀ a, o' a + S256x256.size a ≤ S512x256.size a)
      (w : S256x256.Idx → Elt F .bf16),
      ((oM : Memref sig .tc .vmem S512x256 .bf16).view.slice (Rect.unit (s := S512x256) o S256x256.size p)).write (Elt F) g w Finset.univ
        = ((oM : Memref sig .tc .vmem S512x256 .bf16).view.slice (Rect.unit (s := S512x256) o' S256x256.size p')).write (Elt F) g w Finset.univ := by
    intro o o' h; subst h; intros; rfl
  exact key _ _ (off1_eq_off2 c) _ _ _

omit [FloatOps F] in
/-- A whole result buffer is its two blocks' rows. -/
theorem rows_split (c : Dev nD) (f : Buf (Elt F) (((c : Dev nD) : Thread nD τ).loc cc0_stg1_0)) :
    ((((c : Thread nD τ).loc cc0_stg1_0) ↦{fullShare} f) : sProp 𝕄) ⊣⊢ iprop(rowsPts c c f ∗ rowsPts c (peer c) f) := by
  have hU : (Finset.univ : Finset (Idx ((c : Thread nD τ).loc cc0_stg1_0))) = (slc c).view.set ∪ (slc (peer c)).view.set := by
    rw [slc_set, slc_set]; exact (rows_union c).symm
  have hD : Disjoint (slc c).view.set (slc (peer c)).view.set := by rw [slc_set, slc_set]; exact rows_disjoint c
  unfold rowsPts
  show ((((c : Thread nD τ).loc cc0_stg1_0) ↦[Finset.univ]{fullShare} f) : sProp 𝕄) ⊣⊢ _
  rw [hU]
  exact pointsTo_union hD

/-- After the store, device c's own rows are at their final contents. -/
theorem own_final (c : Dev nD) (g : (cc0_stg1_0 : Ref sig .tc).ty.Contents (Elt F)) :
    rowsPts (F := F) c c (blk m ρ c g) = finPts m ρ c c := by
  unfold finPts
  exact rowsPts_congr c c fun i hi => (outAt_own m ρ c g hi).symm

/-- Block c's rows of the mate's buffer, overwritten with what the copy reads off device c's final contents, are the
    mate's at ITS final contents. -/
theorem landed_final (c : Dev nD) (fd : Buf (Elt F) ((slc c).view.loc (peer c : Thread nD τ))) :
    rowsPts (F := F) (peer c) c ((slc c).view.write (Elt F) fd ((slc c).view.read (Elt F) (outAt m ρ c)) Finset.univ)
      = finPts m ρ (peer c) c := by
  unfold finPts
  refine rowsPts_congr (peer c) c fun i hi => ?_
  rw [View.write_read_eq_piecewise, Finset.piecewise_eq_of_mem _ _ _ (by exact hi)]
  exact (outAt_own m ρ c (base m ρ c) hi).trans (outAt_peer_own m ρ c (base m ρ c) hi).symm

/-! ## The body -/

section Body

variable (K : Dev nD × Fin 3 → ℕ)

/-- The copy of device c's final own rows into the same rows of its mate's buffer, addressed to n = peer c: the library's
    rule for an addressed transfer whose destination the issuer holds, at this protocol's cells. -/
theorem wp_send_rows (c n : Dev nD) (hn : n = peer c)
    {hsc : (slc c : Memref sig (Dev.tc n : Thread nD τ).2.kind .vmem S256x256 .bf16).view.ref.isScScratch = false}
    {hsrc : (slc c : Memref sig .tc .vmem S256x256 .bf16).view.WordExact} {hdst : (slc c : Memref sig .tc .vmem S256x256 .bf16).view.WordExact}
    {hsem : DmaTarget.Typed .vmem (.dma recvS.sem) (.remote (Dev.tc n : Thread nD τ) (slc c : Memref sig .tc .vmem S256x256 .bf16) (.dma sendS.sem) hsc)}
    {α : Type} {Q : α → sProp 𝕄} {k : PUnit → Prog (TpuEff nD τ sig (Elt F) Λ₀ .tc) α}
    (fn : Buf (Elt F) ((slc c).view.loc (peer c : Thread nD τ))) (W : Waits sig Unit) :
    iprop(cellInv ER (agRd m ρ) (K (c, 1)) (sendCell c) ∗ cellInv ER (agRd m ρ) (K (peer c, 2)) (recvCell (peer c))
        ∗ finPts m ρ c c ∗ rowsPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slc c) (.remote (Dev.tc n : Thread nD τ) (slc c) (.dma sendS.sem) hsc) (.dma recvS.sem) hsrc hdst hsem) k) Q) := by
  subst hn
  unfold finPts rowsPts
  exact Rounds.wp_send_pointsTo 𝒱₀ ER (agRd m ρ) (c : Thread nD τ) none (c' := (peer c : Thread nD τ)) (src := slc c) (dst := slc c) (q := fullShare)
    (fs := outAt m ρ c) (fd := fn) (κ₁ := K (c, 1)) (κ₂ := K (peer c, 2))
    (r₁ := 0) (r₂ := 0) (d₁ := ()) (d₂ := ())
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay finPts rowsPts; exact BI.Entails.refl _)
    (by rw [payload_recv]; unfold recvPay; rw [peer_peer]; exact Entails.of_eq (landed_final m ρ c fn))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- The body, symbolically executed from bodyPre to bodyPost. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre ghost invs payToks
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  ihave Hx := (Entails.of_eq (whole_pts c cc0_stg0_0 _)) $$ Hx
  ihave Hout := (Entails.of_eq (whole_pts c cc0_stg1_0 _)) $$ Hout
  sl_exec
  rw [stored_eq m ρ c g1]
  ihave Hout := (Entails.of_eq (whole_pts c cc0_stg1_0 _).symm) $$ Hout
  ihave Hout := (rows_split c _).1 $$ Hout
  icases Hout with ⟨Hown, Hland⟩
  ihave Hown := (Entails.of_eq (own_final m ρ c g1)) $$ Hown
  -- the signal to the mate's barrier cell: c's rows for the mate's block, and that c is at round 0 of its receive cell
  unfold O₀
  iapply (Rounds.wp_signal 𝒱₀ ER (agRd m ρ) (c : Thread nD τ) none (dst := (peer c : Thread nD τ)) (κ := K (peer c, 0))
      (by rw [duties_bar]; exact Finset.mem_singleton_self _) ((amount_bar m ρ (peer c) ()).trans (by decide)) () (tallyAt (recvCell (peer c)) () N) rfl)
    $$ [HO HtBP Hland]
  · isplitr; · iexact HIbarP
    isplitl [HO]; · iexact HO
    isplitl [HtBP]; · iexact HtBP
    isplitl [Hland]
    · rw [payload_bar]; unfold barPay; rw [peer_peer]
      isplitl [Hland]; · unfold somePts; iexists _; iexact Hland
      iexact HrV
    · iexact HrBP
  iintro HO
  -- the wait on its own barrier cell, owing the mate's receive credit: the mate's rows for c's block come with it
  iapply (Rounds.wp_wait_rest_token 𝒱₀ ER (agRd m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay somePts
  icases Hp with ⟨⟨%fn, HlandP⟩, #HrVP'⟩
  -- the copy into the mate's buffer
  iapply (wp_send_rows m ρ K c _ (dev2_eq c) fn (insert (SemLoc.reg barS, ()) W)) $$ [Hown HlandP HO HtS HtVP]
  · isplitr; · iexact HIsnd
    isplitr; · iexact HIrcvP
    isplitl [Hown]; · iexact Hown
    isplitl [HlandP]; · iexact HlandP
    isplitl [HO]; · iexact HO
    isplitl [HtS]; · iexact HtS
    isplitr; · iexact HrS
    isplitl [HtVP]; · iexact HtVP
    iexact HrVP
  iintro ⟨HcS, HO⟩
  -- the wait on its send cell: its own rows back
  iapply (Rounds.wp_wait_rest_token 𝒱₀ ER (agRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq (rest_send m ρ c)) $$ Hpay
  -- the wait on its receive cell: the mate's block in its rows
  iapply (Rounds.wp_wait_rest_token 𝒱₀ ER (agRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq (rest_recv m ρ c)) $$ Hpay
  -- the two own cells close: their counters at zero are the core's again
  imod (Rounds.cell_close ER (agRd m ρ) (Set.mem_univ (K (c, 1))) (fun h => h) (R := 0 + 1) (duties_later m ρ (sendCell c))) $$ [HatS] with HzS
  · isplitr; · iexact HIsnd
    iexact HatS
  imod (Rounds.cell_close ER (agRd m ρ) (Set.mem_univ (K (c, 2))) (fun h => h) (R := 0 + 1) (duties_later m ρ (recvCell c))) $$ [HatV] with HzV
  · isplitr; · iexact HIrcv
    iexact HatV
  -- the two blocks' rows are the whole buffer again, at its final contents
  unfold sendPay recvPay finPts
  ihave Hout := (rows_split c (outAt m ρ c)).2 $$ [Hown Hland]
  · isplitl [Hown]; · iexact Hown
    iexact Hland
  ihave Hx := (Entails.of_eq (whole_pts c cc0_stg0_0 _).symm) $$ Hx
  rw [wp_ret]; imodintro
  iapply Hk
  unfold bodyPost Φ₁ Dat.owesAt Pipeline.owesWithin
  rw [show (dats m ρ 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

/-- info: 'Cert.Kernel.Ag.sound_body' depends on axioms: [propext, Classical.choice, Quot.sound] -/
#guard_msgs in #print axioms sound_body

end Cert.Kernel.Ag

end
-- ==== Proof.KernelLaunch.lean ====
/-
  The launch of the all-gather on the four devices: the protocol's ghost state dealt to the devices (each device's
  three cells allocated, the tokens of the duties a device pays handed across each column by the swap), the credit
  each device's barrier and receive cells are owed at launch, the body obligation, and the run: every weakly fair
  execution ends with each device's argument array unchanged and its result array at the final contents outAt.
-/
import proofs.«900082_g7700000000000083_dist_ag_v7x_xy2x2_x_m256_n256_bf16_1_alg».proof.Proof.KernelBody

noncomputable section

namespace Cert.Kernel.Ag

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m ρ c)
  unfold bodyPre' Φ₀ start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def agCells : Finset (GSem nD τ sig) := Finset.univ.map ⟨kcell, kcell_injective⟩
def agToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf agCells agToks)

/-- The duty tokens of device c's own cells. -/
def toks (c : Dev nD) : sProp 𝕄 := iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (agRd m ρ) (kcell (c, k)) 0)
    ∗ (bigSep Finset.univ fun k : Fin 3 => iprop(atPos ER (kcell (c, k)) 0 ∅ 0 ∗ reached ER (kcell (c, k)) 0)) ∗ toks c)
/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 3 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_fin3]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (agRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (agRd m ρ) (K ck) (kcell ck) : sProp 𝕄)) ⊢ cellInv ER (agRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def linear (c : Dev nD) : sProp 𝕄 := iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear G' ghost invs
  iintro ⟨⟨#HI, #HR⟩, ⟨HaB, HaS, HaV⟩, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Htok

omit [FloatOps F] in
/-- The barrier and receive tokens swapped across each column. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_univ_equiv swap (fun c : Dev nD => (dutyTok ER (barCell c) 0 () : sProp 𝕄)),
    bigSep_univ_equiv swap (fun c : Dev nD => (dutyTok ER (recvCell c) 0 () : sProp 𝕄))]
  iintro ⟨HR, HS, HV⟩
  isplitl [HR]; · iexact HR
  isplitl [HV]; · iexact HV
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (agRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]
omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled 2 x 2 mesh, for any float values, from any memory with zero counters: every weakly fair execution of
    @main — the four kernels handshaking down each column on the barrier semaphore, then swapping blocks — terminates,
    and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Ag.run_main' depends on axioms: [propext, Classical.choice, Quot.sound] -/
#guard_msgs in #print axioms run_main

/-- The argument array after the run holds what it held; -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Kernel.Ag

end
-- ==== Proof.KernelIdealProto.lean ====
/-
  The all-gather's protocol on the 2 x 2 mesh, at any float instance (the program as printed and its idealization
  are the same text: what is said here holds of either).

  Device c = (x, y) holds block x of the input (256 rows). Its 512-row result buffer is two blocks of 256 rows:
  it converts its own block into rows [256 x, 256 x + 256), tells its column mate peer c = (1 - x, y) — on the
  runtime's barrier semaphore — that it is inside the kernel, waits for the same word from the mate, copies its own
  rows into the SAME rows of the mate's result buffer, and waits for its send and for the mate's block to land in
  its other rows. So every device ends with block 0 in rows [0, 256) and block 1 in rows [256, 512).

  This module: the column swap peer, the two row rectangles and that they tile the buffer, the final contents
  outAt c of device c's result buffer as a function of the two input blocks, and the schedule of the three
  semaphores a device waits on (barrier, send, receive: one duty each, round 0) with what each landing hands over.
-/
import proofs.«900082_g7700000000000083_dist_ag_v7x_xy2x2_x_m256_n256_bf16_1_alg».proof.Proof.Gen.KernelIdeal
import proofs.«900082_g7700000000000083_dist_ag_v7x_xy2x2_x_m256_n256_bf16_1_alg».proof.Proof.Gen.KernelIdeal.Skeleton
import proofs.«900082_g7700000000000083_dist_ag_v7x_xy2x2_x_m256_n256_bf16_1_alg».proof.Proof.Gen.KernelIdeal.Launch
import proofs.«900082_g7700000000000083_dist_ag_v7x_xy2x2_x_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Ag

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, both with duties Unit -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The column swap -/

/-- Device c = 2 x + y swaps with 2 (1 - x) + y: the other row of the mesh, the same column. -/
def peer (c : Dev nD) : Dev nD := ⟨(c.val % 2 + 2) - 2 * (c.val / 2), by have : c.val < 4 := c.isLt; show _ < 4; omega⟩

theorem peer_peer (c : Dev nD) : peer (peer c) = c := by revert c; decide
theorem peer_ne (c : Dev nD) : peer c ≠ c := by revert c; decide

/-- The kernel's two device chains (the signal's, the copy's) name peer c. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs and cells -/

abbrev xM : Memref sig .tc .vmem S256x256 .f32 := Memref.whole cc0_stg0_0
abbrev oM : Memref sig .tc .vmem S512x256 .bf16 := Memref.whole cc0_stg1_0

/-- The rows of block d in a result buffer: the rectangle the kernel on device d slices for its copy. -/
abbrev rowsOf (d : Dev nD) : Rect S512x256 := Rect.unit (s := S512x256) (k0_off2 d) S256x256.size (k0_off2_inb d)
abbrev slc (d : Dev nD) : Memref sig .tc .vmem S256x256 .bf16 := oM.slice (rowsOf d) (fun _ => rfl)

/-- The runtime's barrier semaphore of collective id 0 (unscoped), the send and receive DMA semaphores (scoped scratch). -/
abbrev barS : Sem sig := (SemArray.scalar (sig.barrier 0 rfl) : Sems sig S_).sem
abbrev sendS : DmaSems sig S_ := cc0_scratch0
abbrev recvS : DmaSems sig S_ := cc0_scratch1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one block's copy (it depends on the buffer, the block's shape and the element type only). -/
abbrev N : ℕ := (slc (0 : Dev nD)).view.dmaCredit
theorem N_pos : 0 < N := View.dmaCredit_pos _ (by decide)

/-! ## The two row rectangles tile the buffer -/

theorem rows_disjoint (c : Dev nD) : Disjoint (rowsOf c).set (rowsOf (peer c)).set := by
  refine Rect.unit_disjoint (0 : Fin 2) ?_
  rw [k0_off2_eq c, k0_off2_eq (peer c)]
  revert c; decide

theorem rows_union (c : Dev nD) : (rowsOf c).set ∪ (rowsOf (peer c)).set = Finset.univ := by
  ext i
  simp only [Finset.mem_union, Finset.mem_univ, iff_true, Rect.mem_set_unit, k0_off2_eq]
  have h0 : (i 0).val < 512 := (i 0).isLt
  have h1 : (i 1).val < 256 := (i 1).isLt
  have hc : c.val < 4 := c.isLt
  by_cases hlo : (i 0).val < 256
  · by_cases hx : c.val / 2 = 0
    · left; intro a; fin_cases a
      · simp only [hx]; constructor <;> simp <;> omega
      · constructor <;> simp <;> omega
    · right; intro a; fin_cases a
      · have : (peer c).val / 2 = 0 := by unfold peer; simp only; omega
        simp only [this]; constructor <;> simp <;> omega
      · constructor <;> simp <;> omega
  · by_cases hx : c.val / 2 = 1
    · left; intro a; fin_cases a
      · simp only [hx]; constructor <;> simp <;> omega
      · constructor <;> simp <;> omega
    · right; intro a; fin_cases a
      · have : (peer c).val / 2 = 1 := by unfold peer; simp only; omega
        simp only [this]; constructor <;> simp <;> omega
      · constructor <;> simp <;> omega

/-! ## Contents -/

/-- Device c's input block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Block d of the result: device d's input block, converted. -/
def pay (d : Dev nD) : S256x256.Idx → Elt F .bf16 := k0_pay1 (xstg m ρ d)

/-- Contents g of a result buffer with block d written into its rows. -/
def blk (d : Dev nD) (g : (cc0_stg1_0 : Ref sig .tc).ty.Contents (Elt F)) : (cc0_stg1_0 : Ref sig .tc).ty.Contents (Elt F) :=
  (slc d).view.write (Elt F) g (pay m ρ d) Finset.univ

/-- Some contents to write the two blocks over (every element is overwritten: which contents is immaterial). -/
def base (c : Dev nD) : (cc0_stg1_0 : Ref sig .tc).ty.Contents (Elt F) := fun _ => pay m ρ c (Shape.Idx.first h_S256x256)

/-- The final contents of device c's result buffer: its own block in its rows, its mate's block in the mate's. -/
def outAt (c : Dev nD) : (cc0_stg1_0 : Ref sig .tc).ty.Contents (Elt F) := blk m ρ (peer c) (blk m ρ c (base m ρ c))

omit [FloatOps F] in
theorem slc_set (d : Dev nD) : (slc d).view.set = (rowsOf d).set := View.set_slice_whole _ _

/-- On block d's rows, writing block d gives the same whatever it is written over; -/
theorem blk_congr (d : Dev nD) (g g' : (cc0_stg1_0 : Ref sig .tc).ty.Contents (Elt F)) {i : (cc0_stg1_0 : Ref sig .tc).ty.Idx}
    (hi : i ∈ (slc d).view.set) : blk m ρ d g i = blk m ρ d g' i :=
  View.write_congr (fun _ _ _ => rfl) (fun h => absurd hi h)

/-- off them nothing changes. -/
theorem blk_off (d : Dev nD) (g : (cc0_stg1_0 : Ref sig .tc).ty.Contents (Elt F)) {i : (cc0_stg1_0 : Ref sig .tc).ty.Idx}
    (hi : i ∉ (slc d).view.set) : blk m ρ d g i = g i :=
  View.write_of_not_mem _ _ _ hi

omit [FloatOps F] in
theorem not_mem_peer {c : Dev nD} {i : (cc0_stg1_0 : Ref sig .tc).ty.Idx} (hi : i ∈ (slc c).view.set) : i ∉ (slc (peer c)).view.set := by
  rw [slc_set] at hi ⊢
  exact Finset.disjoint_left.mp (rows_disjoint c) hi

/-- On its own rows device c's final contents are its block written over anything, -/
theorem outAt_own (c : Dev nD) (g : (cc0_stg1_0 : Ref sig .tc).ty.Contents (Elt F)) {i : (cc0_stg1_0 : Ref sig .tc).ty.Idx}
    (hi : i ∈ (slc c).view.set) : outAt m ρ c i = blk m ρ c g i := by
  unfold outAt
  rw [blk_off m ρ (peer c) _ (not_mem_peer hi)]
  exact blk_congr m ρ c _ _ hi

/-- and so are its mate's there: the two devices end with the same rows of block c. -/
theorem outAt_peer_own (c : Dev nD) (g : (cc0_stg1_0 : Ref sig .tc).ty.Contents (Elt F)) {i : (cc0_stg1_0 : Ref sig .tc).ty.Idx}
    (hi : i ∈ (slc c).view.set) : outAt m ρ (peer c) i = blk m ρ c g i := by
  unfold outAt
  rw [peer_peer]
  exact blk_congr m ρ c _ _ hi

/-! ## Rows of a result buffer, as assertions -/

/-- Block d's rows of device c's result buffer, at contents f. -/
def rowsPts (c d : Dev nD) (f : Buf (Elt F) ((slc d).view.loc (c : Thread nD τ))) : sProp 𝕄 :=
  (slc d).view.loc (c : Thread nD τ) ↦[(slc d).view.set]{fullShare} f
/-- The same at some contents, -/
def somePts (c d : Dev nD) : sProp 𝕄 := iprop(∃ f, rowsPts c d f)
/-- and at the final contents. -/
def finPts (c d : Dev nD) : sProp 𝕄 := rowsPts c d (outAt m ρ c)

omit [FloatOps F] in
instance rowsPts_storable (c d : Dev nD) (f) : BI.Storable (upEmb : UEmb _ 𝕄) (rowsPts (F := F) c d f) := by unfold rowsPts; infer_instance
omit [FloatOps F] in
instance somePts_storable (c d : Dev nD) : BI.Storable (upEmb : UEmb _ 𝕄) (somePts (F := F) c d) := by unfold somePts; infer_instance
instance finPts_storable (c d : Dev nD) : BI.Storable (upEmb : UEmb _ 𝕄) (finPts (F := F) m ρ c d) := by unfold finPts; infer_instance

omit [FloatOps F] in
/-- Rows at contents that agree on them are the same assertion. -/
theorem rowsPts_congr (c d : Dev nD) {f g : Buf (Elt F) ((slc d).view.loc (c : Thread nD τ))} (h : ∀ i ∈ (slc d).view.set, f i = g i) :
    rowsPts (F := F) c d f = rowsPts c d g := by
  unfold rowsPts; exact BI.Region.is_congr h

/-! ## The schedule -/

/-- What peer c's signal hands c: the rows of peer c's buffer that c's block lands in, and that peer c has reached
    round 0 of its receive cell. -/
def barPay (c : Dev nD) : sProp 𝕄 := iprop(somePts (peer c) c ∗ reached ER (recvCell (peer c)) 0)
/-- What the copy's landing hands c: its mate's rows of its buffer at their final contents; -/
def recvPay (c : Dev nD) : sProp 𝕄 := finPts m ρ c (peer c)
/-- what its departure hands back: c's own rows, as final. -/
def sendPay (c : Dev nD) : sProp 𝕄 := finPts m ρ c c

abbrev IsProto (g : GSem nD τ sig) : Prop := g.1.2 = .tc ∧ (g.2 = .reg barS ∨ g.2 = .dma sendS.sem ∨ g.2 = .dma recvS.sem)

/-- One round, round 0: each of a device's three cells has one duty — the barrier's one unit, the send's and the
    receive's the block's credit. -/
def agRd : Rounds.Schedule (GSem nD τ sig) Unit 𝕄 where
  duties g r := if r = 0 ∧ IsProto g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance agRd_payload_storable (g : GSem nD τ sig) (r : ℕ) (d : Unit) : BI.Storable (upEmb : UEmb _ 𝕄) ((agRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (agRd (F := F) m ρ).duties (barCell c) 0 = {()} := by dsimp only [agRd]; exact if_pos ⟨rfl, rfl, .inl rfl⟩
theorem duties_send : (agRd (F := F) m ρ).duties (sendCell c) 0 = {()} := by dsimp only [agRd]; exact if_pos ⟨rfl, rfl, .inr (.inl rfl)⟩
theorem duties_recv : (agRd (F := F) m ρ).duties (recvCell c) 0 = {()} := by dsimp only [agRd]; exact if_pos ⟨rfl, rfl, .inr (.inr rfl)⟩
theorem duties_later (g : GSem nD τ sig) : ∀ r, 1 ≤ r → (agRd (F := F) m ρ).duties g r = ∅ :=
  fun r hr => by dsimp only [agRd]; rw [if_neg fun h => by omega]

theorem amount_bar (u : Unit) : (agRd (F := F) m ρ).amount (barCell c) 0 u = 1 := by dsimp only [agRd]; exact if_pos rfl
theorem amount_send (u : Unit) : (agRd (F := F) m ρ).amount (sendCell c) 0 u = N := by dsimp only [agRd]; exact if_neg send_ne_bar
theorem amount_recv (u : Unit) : (agRd (F := F) m ρ).amount (recvCell c) 0 u = N := by dsimp only [agRd]; exact if_neg recv_ne_bar

theorem expect_bar : (agRd (F := F) m ρ).expect (barCell c) 0 = 1 := by
  unfold Schedule.expect Schedule.amountOf; rw [duties_bar, Finset.sum_singleton, amount_bar]
theorem expect_send : (agRd (F := F) m ρ).expect (sendCell c) 0 = N := by
  unfold Schedule.expect Schedule.amountOf; rw [duties_send, Finset.sum_singleton, amount_send]
theorem expect_recv : (agRd (F := F) m ρ).expect (recvCell c) 0 = N := by
  unfold Schedule.expect Schedule.amountOf; rw [duties_recv, Finset.sum_singleton, amount_recv]

theorem payload_bar (u : Unit) : (agRd (F := F) m ρ).payload (barCell c) 0 u = barPay c := by dsimp only [agRd]; exact if_pos rfl
theorem payload_send (u : Unit) : (agRd (F := F) m ρ).payload (sendCell c) 0 u = sendPay m ρ c := by
  dsimp only [agRd]; rw [if_neg send_ne_bar, if_neg send_ne_recv, if_pos rfl]
theorem payload_recv (u : Unit) : (agRd (F := F) m ρ).payload (recvCell c) 0 u = recvPay m ρ c := by
  dsimp only [agRd]; rw [if_neg recv_ne_bar, if_pos rfl]

theorem rest_bar : bigSep ((agRd (F := F) m ρ).duties (barCell c) 0 \ ∅) (fun u => (agRd (F := F) m ρ).payload (barCell c) 0 u) = barPay c := by
  rw [Finset.sdiff_empty, duties_bar, bigSep_singleton, payload_bar]
theorem rest_send : bigSep ((agRd (F := F) m ρ).duties (sendCell c) 0 \ ∅) (fun u => (agRd (F := F) m ρ).payload (sendCell c) 0 u) = sendPay m ρ c := by
  rw [Finset.sdiff_empty, duties_send, bigSep_singleton, payload_send]
theorem rest_recv : bigSep ((agRd (F := F) m ρ).duties (recvCell c) 0 \ ∅) (fun u => (agRd (F := F) m ρ).payload (recvCell c) 0 u) = recvPay m ρ c := by
  rw [Finset.sdiff_empty, duties_recv, bigSep_singleton, payload_recv]

end Sched

/-! ## What each core owes at launch; the levels -/

/-- Device c owes its mate's receive cell the block's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its mate's receive credit only: a receive cell, above its barrier cell. -/
theorem mayWait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Ag

end
-- ==== Proof.KernelIdealBody.lean ====
/-
  One device's body of the all-gather, stepped once at a symbolic device c: the conversion of its block into its
  rows of the result buffer, the handshake with its column mate on the barrier semaphore, the copy of its rows into
  the mate's buffer, and the waits for its send and for the mate's rows to land; from the protocol's ghost state to
  the result buffer whole at its final contents.
-/
import proofs.«900082_g7700000000000083_dist_ag_v7x_xy2x2_x_m256_n256_bf16_1_alg».proof.Proof.KernelIdealProto

noncomputable section

namespace Cert.KernelIdeal.Ag

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The cells' invariants device c's body opens, under the names K the launch allocated them at: its own three,
    its mate's barrier cell (its signal) and receive cell (its copy). -/
def invs (K : Dev nD × Fin 3 → ℕ) (c : Dev nD) : sProp 𝕄 :=
  iprop(cellInv ER (agRd m ρ) (K (c, 0)) (barCell c) ∗ cellInv ER (agRd m ρ) (K (c, 1)) (sendCell c) ∗ cellInv ER (agRd m ρ) (K (c, 2)) (recvCell c)
    ∗ cellInv ER (agRd m ρ) (K (peer c, 0)) (barCell (peer c)) ∗ cellInv ER (agRd m ρ) (K (peer c, 2)) (recvCell (peer c)))

instance invs_persistent (K : Dev nD × Fin 3 → ℕ) (c : Dev nD) : BI.Persistent (invs m ρ K c) := by unfold invs; infer_instance

/-- The tokens of the duties device c pays: its mate's barrier duty, its mate's receive duty, its own send duty. -/
def payToks (c : Dev nD) : sProp 𝕄 := iprop(dutyTok ER (barCell (peer c)) 0 () ∗ dutyTok ER (recvCell (peer c)) 0 () ∗ dutyTok ER (sendCell c) 0 ())

/-- The protocol's ghost state device c starts from. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device c's body starts from: that at some names, its two credit tokens (its barrier's unit, its receive
    cell's credit) and the level facts. -/
def start (c : Dev nD) : sProp 𝕄 := iprop((∃ K, ghost m ρ K c) ∗ cred (tallyAt (barCell c) () 1) ∗ cred (tallyAt (recvCell c) () N) ∗ levAts L lv)

def Φ₀ (c : Dev nD) : sProp 𝕄 := start m ρ c
/-- After the point: the two OWN cells at zero, closed (the barrier cell is the runtime's: nothing to hand back). -/
def Φ₁ (c : Dev nD) : sProp 𝕄 := iprop(semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer's points-to, spelt through the whole memref's view. -/
theorem whole_pts (c : Dev nD) (b : Ref sig .tc) (f : Buf (Elt F) (((c : Dev nD) : Thread nD τ).loc b)) :
    ((((c : Thread nD τ).loc b) ↦{fullShare} f) : sProp 𝕄)
      = ((Memref.whole b : Memref sig .tc _ _ _).view.loc (c : Thread nD τ) ↦[(Memref.whole b : Memref sig .tc _ _ _).view.set]{fullShare} f) := by
  show _ = (View.loc (c : Thread nD τ) (View.whole b) ↦[(View.whole b).set]{fullShare} f)
  rw [View.set_whole]

/-! ## What the stores and the copy leave, against the final contents -/

omit [FloatOps F] in
theorem hz : (![0, 0] : Fin 2 → Nat) = fun _ => 0 := funext fun a => by fin_cases a <;> rfl

theorem off1_eq_off2 (c : Dev nD) : k0_off1 c = k0_off2 c := (k0_off1_eq c).trans (k0_off2_eq c).symm

/-- What the conversion's store leaves in device c's buffer over contents g: block c written into its rows. -/
theorem stored_eq (c : Dev nD) (g : (cc0_stg1_0 : Ref sig .tc).ty.Contents (Elt F)) :
    (oM : Memref sig .tc .vmem S512x256 .bf16).view.writes (Elt F) g
      [⟨Rect.unit (s := S512x256) (k0_off1 c) S256x256.size (k0_off1_inb c),
        k0_pay1 (View.readAt (Elt F) (xM : Memref sig .tc .vmem S256x256 .f32).view
          (Rect.unit (s := S256x256) ![0, 0] S256x256.size inb_S256x256_S256x256_0_0).toLoadRect (xstg m ρ c))⟩]
      = blk m ρ c g := by
  have hr : View.readAt (Elt F) (xM : Memref sig .tc .vmem S256x256 .f32).view
      (Rect.unit (s := S256x256) ![0, 0] S256x256.size inb_S256x256_S256x256_0_0).toLoadRect (xstg m ρ c) = xstg m ρ c :=
    Memref.readAt_unit_zero (Elt F) cc0_stg0_0 hz _ _
  rw [View.writes_singleton, hr]
  have key : ∀ (o o' : Fin 2 → Nat) (h : o = o') (p : ∀ a, o a + S256x256.size a ≤ S512x256.size a) (p' : ∀ a, o' a + S256x256.size a ≤ S512x256.size a)
      (w : S256x256.Idx → Elt F .bf16),
      ((oM : Memref sig .tc .vmem S512x256 .bf16).view.slice (Rect.unit (s := S512x256) o S256x256.size p)).write (Elt F) g w Finset.univ
        = ((oM : Memref sig .tc .vmem S512x256 .bf16).view.slice (Rect.unit (s := S512x256) o' S256x256.size p')).write (Elt F) g w Finset.univ := by
    intro o o' h; subst h; intros; rfl
  exact key _ _ (off1_eq_off2 c) _ _ _

omit [FloatOps F] in
/-- A whole result buffer is its two blocks' rows. -/
theorem rows_split (c : Dev nD) (f : Buf (Elt F) (((c : Dev nD) : Thread nD τ).loc cc0_stg1_0)) :
    ((((c : Thread nD τ).loc cc0_stg1_0) ↦{fullShare} f) : sProp 𝕄) ⊣⊢ iprop(rowsPts c c f ∗ rowsPts c (peer c) f) := by
  have hU : (Finset.univ : Finset (Idx ((c : Thread nD τ).loc cc0_stg1_0))) = (slc c).view.set ∪ (slc (peer c)).view.set := by
    rw [slc_set, slc_set]; exact (rows_union c).symm
  have hD : Disjoint (slc c).view.set (slc (peer c)).view.set := by rw [slc_set, slc_set]; exact rows_disjoint c
  unfold rowsPts
  show ((((c : Thread nD τ).loc cc0_stg1_0) ↦[Finset.univ]{fullShare} f) : sProp 𝕄) ⊣⊢ _
  rw [hU]
  exact pointsTo_union hD

/-- After the store, device c's own rows are at their final contents. -/
theorem own_final (c : Dev nD) (g : (cc0_stg1_0 : Ref sig .tc).ty.Contents (Elt F)) :
    rowsPts (F := F) c c (blk m ρ c g) = finPts m ρ c c := by
  unfold finPts
  exact rowsPts_congr c c fun i hi => (outAt_own m ρ c g hi).symm

/-- Block c's rows of the mate's buffer, overwritten with what the copy reads off device c's final contents, are the
    mate's at ITS final contents. -/
theorem landed_final (c : Dev nD) (fd : Buf (Elt F) ((slc c).view.loc (peer c : Thread nD τ))) :
    rowsPts (F := F) (peer c) c ((slc c).view.write (Elt F) fd ((slc c).view.read (Elt F) (outAt m ρ c)) Finset.univ)
      = finPts m ρ (peer c) c := by
  unfold finPts
  refine rowsPts_congr (peer c) c fun i hi => ?_
  rw [View.write_read_eq_piecewise, Finset.piecewise_eq_of_mem _ _ _ (by exact hi)]
  exact (outAt_own m ρ c (base m ρ c) hi).trans (outAt_peer_own m ρ c (base m ρ c) hi).symm

/-! ## The body -/

section Body

variable (K : Dev nD × Fin 3 → ℕ)

/-- The copy of device c's final own rows into the same rows of its mate's buffer, addressed to n = peer c: the library's
    rule for an addressed transfer whose destination the issuer holds, at this protocol's cells. -/
theorem wp_send_rows (c n : Dev nD) (hn : n = peer c)
    {hsc : (slc c : Memref sig (Dev.tc n : Thread nD τ).2.kind .vmem S256x256 .bf16).view.ref.isScScratch = false}
    {hsrc : (slc c : Memref sig .tc .vmem S256x256 .bf16).view.WordExact} {hdst : (slc c : Memref sig .tc .vmem S256x256 .bf16).view.WordExact}
    {hsem : DmaTarget.Typed .vmem (.dma recvS.sem) (.remote (Dev.tc n : Thread nD τ) (slc c : Memref sig .tc .vmem S256x256 .bf16) (.dma sendS.sem) hsc)}
    {α : Type} {Q : α → sProp 𝕄} {k : PUnit → Prog (TpuEff nD τ sig (Elt F) Λ₀ .tc) α}
    (fn : Buf (Elt F) ((slc c).view.loc (peer c : Thread nD τ))) (W : Waits sig Unit) :
    iprop(cellInv ER (agRd m ρ) (K (c, 1)) (sendCell c) ∗ cellInv ER (agRd m ρ) (K (peer c, 2)) (recvCell (peer c))
        ∗ finPts m ρ c c ∗ rowsPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slc c) (.remote (Dev.tc n : Thread nD τ) (slc c) (.dma sendS.sem) hsc) (.dma recvS.sem) hsrc hdst hsem) k) Q) := by
  subst hn
  unfold finPts rowsPts
  exact Rounds.wp_send_pointsTo 𝒱₀ ER (agRd m ρ) (c : Thread nD τ) none (c' := (peer c : Thread nD τ)) (src := slc c) (dst := slc c) (q := fullShare)
    (fs := outAt m ρ c) (fd := fn) (κ₁ := K (c, 1)) (κ₂ := K (peer c, 2))
    (r₁ := 0) (r₂ := 0) (d₁ := ()) (d₂ := ())
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay finPts rowsPts; exact BI.Entails.refl _)
    (by rw [payload_recv]; unfold recvPay; rw [peer_peer]; exact Entails.of_eq (landed_final m ρ c fn))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- The body, symbolically executed from bodyPre to bodyPost. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre ghost invs payToks
  iintro ⟨⟨⟨⟨⟨#HIbar, #HIsnd, #HIrcv, #HIbarP, #HIrcvP⟩, HatB, HatS, HatV, #HrBP, #HrVP, #HrS, #HrV, HtBP, HtVP, HtS⟩, HcB, HcV, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  ihave Hx := (Entails.of_eq (whole_pts c cc0_stg0_0 _)) $$ Hx
  ihave Hout := (Entails.of_eq (whole_pts c cc0_stg1_0 _)) $$ Hout
  sl_exec
  rw [stored_eq m ρ c g1]
  ihave Hout := (Entails.of_eq (whole_pts c cc0_stg1_0 _).symm) $$ Hout
  ihave Hout := (rows_split c _).1 $$ Hout
  icases Hout with ⟨Hown, Hland⟩
  ihave Hown := (Entails.of_eq (own_final m ρ c g1)) $$ Hown
  -- the signal to the mate's barrier cell: c's rows for the mate's block, and that c is at round 0 of its receive cell
  unfold O₀
  iapply (Rounds.wp_signal 𝒱₀ ER (agRd m ρ) (c : Thread nD τ) none (dst := (peer c : Thread nD τ)) (κ := K (peer c, 0))
      (by rw [duties_bar]; exact Finset.mem_singleton_self _) ((amount_bar m ρ (peer c) ()).trans (by decide)) () (tallyAt (recvCell (peer c)) () N) rfl)
    $$ [HO HtBP Hland]
  · isplitr; · iexact HIbarP
    isplitl [HO]; · iexact HO
    isplitl [HtBP]; · iexact HtBP
    isplitl [Hland]
    · rw [payload_bar]; unfold barPay; rw [peer_peer]
      isplitl [Hland]; · unfold somePts; iexists _; iexact Hland
      iexact HrV
    · iexact HrBP
  iintro HO
  -- the wait on its own barrier cell, owing the mate's receive credit: the mate's rows for c's block come with it
  iapply (Rounds.wp_wait_rest_token 𝒱₀ ER (agRd m ρ) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay somePts
  icases Hp with ⟨⟨%fn, HlandP⟩, #HrVP'⟩
  -- the copy into the mate's buffer
  iapply (wp_send_rows m ρ K c _ (dev2_eq c) fn (insert (SemLoc.reg barS, ()) W)) $$ [Hown HlandP HO HtS HtVP]
  · isplitr; · iexact HIsnd
    isplitr; · iexact HIrcvP
    isplitl [Hown]; · iexact Hown
    isplitl [HlandP]; · iexact HlandP
    isplitl [HO]; · iexact HO
    isplitl [HtS]; · iexact HtS
    isplitr; · iexact HrS
    isplitl [HtVP]; · iexact HtVP
    iexact HrVP
  iintro ⟨HcS, HO⟩
  -- the wait on its send cell: its own rows back
  iapply (Rounds.wp_wait_rest_token 𝒱₀ ER (agRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq (rest_send m ρ c)) $$ Hpay
  -- the wait on its receive cell: the mate's block in its rows
  iapply (Rounds.wp_wait_rest_token 𝒱₀ ER (agRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq (rest_recv m ρ c)) $$ Hpay
  -- the two own cells close: their counters at zero are the core's again
  imod (Rounds.cell_close ER (agRd m ρ) (Set.mem_univ (K (c, 1))) (fun h => h) (R := 0 + 1) (duties_later m ρ (sendCell c))) $$ [HatS] with HzS
  · isplitr; · iexact HIsnd
    iexact HatS
  imod (Rounds.cell_close ER (agRd m ρ) (Set.mem_univ (K (c, 2))) (fun h => h) (R := 0 + 1) (duties_later m ρ (recvCell c))) $$ [HatV] with HzV
  · isplitr; · iexact HIrcv
    iexact HatV
  -- the two blocks' rows are the whole buffer again, at its final contents
  unfold sendPay recvPay finPts
  ihave Hout := (rows_split c (outAt m ρ c)).2 $$ [Hown Hland]
  · isplitl [Hown]; · iexact Hown
    iexact Hland
  ihave Hx := (Entails.of_eq (whole_pts c cc0_stg0_0 _).symm) $$ Hx
  rw [wp_ret]; imodintro
  iapply Hk
  unfold bodyPost Φ₁ Dat.owesAt Pipeline.owesWithin
  rw [show (dats m ρ 0 c).owed t₀.succ = 0 from rfl]
  isplitl [HzS HzV]
  · isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

/-- info: 'Cert.KernelIdeal.Ag.sound_body' depends on axioms: [propext, Classical.choice, Quot.sound] -/
#guard_msgs in #print axioms sound_body

end Cert.KernelIdeal.Ag

end
-- ==== Proof.KernelIdealLaunch.lean ====
/-
  The launch of the all-gather on the four devices: the protocol's ghost state dealt to the devices (each device's
  three cells allocated, the tokens of the duties a device pays handed across each column by the swap), the credit
  each device's barrier and receive cells are owed at launch, the body obligation, and the run: every weakly fair
  execution ends with each device's argument array unchanged and its result array at the final contents outAt.
-/
import proofs.«900082_g7700000000000083_dist_ag_v7x_xy2x2_x_m256_n256_bf16_1_alg».proof.Proof.KernelIdealBody

noncomputable section

namespace Cert.KernelIdeal.Ag

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) cc0_scratch0 cc0_scratch1)
    (fun _ => bodyPost m ρ c)
  unfold bodyPre' Φ₀ start
  iintro ⟨⟨⟨%K, Hg⟩, Hrest⟩, Ho, Hx, Hout⟩
  iapply (sound_body m ρ K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def agCells : Finset (GSem nD τ sig) := Finset.univ.map ⟨kcell, kcell_injective⟩
def agToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf agCells agToks)

/-- The duty tokens of device c's own cells. -/
def toks (c : Dev nD) : sProp 𝕄 := iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (agRd m ρ) (kcell (c, k)) 0)
    ∗ (bigSep Finset.univ fun k : Fin 3 => iprop(atPos ER (kcell (c, k)) 0 ∅ 0 ∗ reached ER (kcell (c, k)) 0)) ∗ toks c)
/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 3 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_fin3]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (agRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (agRd m ρ) (K ck) (kcell ck) : sProp 𝕄)) ⊢ cellInv ER (agRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def linear (c : Dev nD) : sProp 𝕄 := iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear G' ghost invs
  iintro ⟨⟨#HI, #HR⟩, ⟨HaB, HaS, HaV⟩, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Htok

omit [FloatOps F] in
/-- The barrier and receive tokens swapped across each column. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_univ_equiv swap (fun c : Dev nD => (dutyTok ER (barCell c) 0 () : sProp 𝕄)),
    bigSep_univ_equiv swap (fun c : Dev nD => (dutyTok ER (recvCell c) 0 () : sProp 𝕄))]
  iintro ⟨HR, HS, HV⟩
  isplitl [HR]; · iexact HR
  isplitl [HV]; · iexact HV
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (agRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]
omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨HzS, HzV⟩
  isplitr; · iempintro
  isplitl [HzS HzV]
  · isplitl [HzS] <;> iassumption
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled 2 x 2 mesh, for any float values, from any memory with zero counters: every weakly fair execution of
    @main — the four kernels handshaking down each column on the barrier semaphore, then swapping blocks — terminates,
    and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Ag.run_main' depends on axioms: [propext, Classical.choice, Quot.sound] -/
#guard_msgs in #print axioms run_main

/-- The argument array after the run holds what it held; -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Ag

end
-- ==== Proof.Value.lean ====
/-
  The value of the all-gather. Device c's result array ends at outAt c: its own converted block in its rows, its
  column mate's in the other rows. When every device's argument block is its part of one whole array X (block x of
  the rows for the devices of mesh row x), that is the conversion of X, element by element — what the reference
  computes on one device.
-/
import proofs.«900082_g7700000000000083_dist_ag_v7x_xy2x2_x_m256_n256_bf16_1_alg».proof.Proof.KernelIdealLaunch
import proofs.«900082_g7700000000000083_dist_ag_v7x_xy2x2_x_m256_n256_bf16_1_alg».proof.Proof.Gen.ReferenceIdeal.Run
import proofs.«900082_g7700000000000083_dist_ag_v7x_xy2x2_x_m256_n256_bf16_1_alg».proof.Proof.Gen.ReferenceIdeal.Read
import Idealize.ShloMosaic.Lib.Layout
import Idealize.ShloMosaic.Lib.Pipeline.Value

noncomputable section

namespace Cert.KernelIdeal.Ag

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The result array after the run -/

/-- The one write-back writes the staging buffer's final contents over the whole array. -/
theorem final_out (c : Dev nD) : finalA m ρ c (1 : Fin 2) = outAt m ρ c := by
  refine (dats m ρ 0 c).arrAt_eq_of_cover 1 (outAt m ρ c) (fun t hf => ?_) (fun i => ⟨t₀, ?_, ?_⟩)
  · rw [fin_N t]
    show (cfg0.win 1).cut (grid0.coords t₀) (outAt m ρ c) = _
    have hz' : (fun a => win0_1.index t₀ a * main_v1.ty.shape.size a) = fun _ => 0 := funext fun a => by fin_cases a <;> decide
    exact (Memref.read_access_unit_zero (Elt F) main_v1 hz' (fun a => by rw [congrFun hz' a]; simp) (outAt m ρ c)).symm
  · exact flush0_1 t₀
  · show i ∈ ((View.whole main_v1).slice (win0_1.rect t₀)).set
    rw [View.set_slice_whole, Rect.mem_set_unit]
    intro a
    have h0 : (i 0 : Nat) < 512 := (i 0).isLt
    have h1 : (i 1 : Nat) < 256 := (i 1).isLt
    match a with
    | ⟨0, _⟩ =>
      show win0_1.index t₀ 0 * win0_1.size 0 ≤ (i 0 : Nat) ∧ (i 0 : Nat) < win0_1.index t₀ 0 * win0_1.size 0 + win0_1.xsize (grid0.coords t₀) 0
      rw [show win0_1.index t₀ 0 * win0_1.size 0 = 0 from by decide +kernel, show win0_1.xsize (grid0.coords t₀) 0 = 512 from by decide +kernel]; omega
    | ⟨1, _⟩ =>
      show win0_1.index t₀ 1 * win0_1.size 1 ≤ (i 1 : Nat) ∧ (i 1 : Nat) < win0_1.index t₀ 1 * win0_1.size 1 + win0_1.xsize (grid0.coords t₀) 1
      rw [show win0_1.index t₀ 1 * win0_1.size 1 = 0 from by decide +kernel, show win0_1.xsize (grid0.coords t₀) 1 = 256 from by decide +kernel]; omega

/-- A device's input staging buffer holds its argument array (the window's one block is the array). -/
theorem xstg_eq (c : Dev nD) : xstg m ρ c = m ((c : Thread nD τ).loc main_arg0) := by
  unfold xstg s₀
  have hz' : (fun a => win0_0.index (0 : Fin 1) a * main_arg0.ty.shape.size a) = fun _ => 0 := funext fun a => by fin_cases a <;> decide
  exact Memref.read_access_unit_zero (Elt F) main_arg0 hz' (fun a => by rw [congrFun hz' a]; simp) _

/-! ## The final contents, index by index -/

/-- The block of the rows a device holds is its mesh row; the columns are not cut. -/
theorem meshRow (d : Dev nD) : (Layout.meshBlock [2, 2] ![[0], []] d (by decide) 0).val = d.val / 2 := by revert d; decide
theorem meshCol (d : Dev nD) : (Layout.meshBlock [2, 2] ![[0], []] d (by decide) 1).val = 0 := by revert d; decide

section Whole

variable (X : S512x256.Idx → Elt F .f32)
  (hX : ∀ c : Dev nD, m ((c : Thread nD τ).loc main_arg0)
    = Layout.blockN ⟨2, ![256, 256]⟩ ⟨2, ![512, 256]⟩ (Layout.meshBlock [2, 2] ![[0], []] c) X)
include hX

/-- Row r of block d is row 256 (d / 2) + r of the whole array: where device d's rectangle puts it is where the
    mesh layout takes it from. -/
theorem blk_emb (d : Dev nD) (g : (cc0_stg1_0 : Ref sig .tc).ty.Contents (Elt F)) (x : S256x256.Idx) :
    blk m ρ d g ((slc d).view.emb x) = FloatOps.truncf .bf16 bitsLt_bf16_f32 (X ((slc d).view.emb x)) := by
  unfold blk
  rw [View.write_emb_of_mem _ _ (Finset.mem_univ x), cast_eq]
  unfold pay k0_pay1
  show FloatOps.truncf .bf16 bitsLt_bf16_f32 (shapeCast S256x256 (xstg m ρ d) shapeCasts_S256x256_S256x256 x) = _
  have hs : shapeCast S256x256 (xstg m ρ d) shapeCasts_S256x256_S256x256 x = xstg m ρ d x :=
    congrFun (shapeCast_self (s := S256x256) (xstg m ρ d) shapeCasts_S256x256_S256x256) x
  rw [hs, xstg_eq, hX d, Layout.blockN_apply]
  refine congrArg (fun j => FloatOps.truncf .bf16 bitsLt_bf16_f32 (X j)) ?_
  show _ = (rowsOf d).emb x
  funext a
  apply Fin.ext
  rw [Layout.TilesN.idx_val, Rect.emb_apply]
  show _ = k0_off2 d a + 1 * (x a).val
  rw [k0_off2_eq d, Nat.one_mul]
  have hd : d.val < 4 := d.isLt
  match a with
  | ⟨0, _⟩ =>
    show (Layout.meshBlock [2, 2] ![[0], []] d _ 0).val * 256 + (x 0).val = 256 * (d.val / 2) + (x 0).val
    rw [meshRow d]
    omega
  | ⟨1, _⟩ =>
    show (Layout.meshBlock [2, 2] ![[0], []] d _ 1).val * 256 + (x 1).val = 0 + (x 1).val
    rw [meshCol d, Nat.zero_mul]

/-- Every element of device c's final contents is the conversion of the whole array's element there. -/
theorem outAt_apply (c : Dev nD) (i : S512x256.Idx) : outAt m ρ c i = FloatOps.truncf .bf16 bitsLt_bf16_f32 (X i) := by
  have hi : i ∈ (slc c).view.set ∪ (slc (peer c)).view.set := by
    rw [slc_set, slc_set, rows_union]; exact Finset.mem_univ _
  rcases Finset.mem_union.mp hi with h | h
  · obtain ⟨x, rfl⟩ := View.exists_emb_of_mem_set _ h
    rw [outAt_own m ρ c (base m ρ c) h]
    exact blk_emb m ρ X hX c _ x
  · obtain ⟨x, rfl⟩ := View.exists_emb_of_mem_set _ h
    unfold outAt
    exact blk_emb m ρ X hX (peer c) _ x

/-- So the final contents are the whole array converted. -/
theorem outAt_whole (c : Dev nD) : outAt m ρ c = truncf .bf16 X bitsLt_bf16_f32 :=
  funext fun i => outAt_apply m ρ X hX c i

end Whole

/-- info: 'Cert.KernelIdeal.Ag.outAt_whole' depends on axioms: [propext, Classical.choice, Quot.sound] -/
#guard_msgs in #print axioms outAt_whole

end Cert.KernelIdeal.Ag

end
-- ==== Proof.lean ====
/- An all-gather of a [512, 256] array cut by rows over the two rows of a 2 x 2 mesh, against the identity (with the
   result's conversion to bf16) on one device.

   Device (x, y) holds block x of the rows. It converts its block into rows [256 x, 256 x + 256) of its result buffer,
   handshakes with its column mate (1 - x, y) on the barrier semaphore, copies those rows into the same rows of the
   mate's result buffer, and waits for its send and for the mate's rows to land: every device ends with both blocks,
   each converted element by element — the whole array converted, which is what the reference computes.

   The three frames and the value are read off one run per program: the kernel's (at both instances: the protocol, one
   device's body and the launch over all four devices) leaves each argument array as it was and each result array at
   the two converted blocks; the reference's is its one host operation. No operation was rewritten by the ideal pass,
   so there is nothing to preserve; and the value needs no arithmetic: both sides apply the same conversion to the same
   elements. -/
import proofs.«900082_g7700000000000083_dist_ag_v7x_xy2x2_x_m256_n256_bf16_1_alg».proof.Defs
import proofs.«900082_g7700000000000083_dist_ag_v7x_xy2x2_x_m256_n256_bf16_1_alg».proof.Proof.Gen.Kernel
import proofs.«900082_g7700000000000083_dist_ag_v7x_xy2x2_x_m256_n256_bf16_1_alg».proof.Proof.Gen.Kernel.Skeleton
import proofs.«900082_g7700000000000083_dist_ag_v7x_xy2x2_x_m256_n256_bf16_1_alg».proof.Proof.Gen.Kernel.Launch
import proofs.«900082_g7700000000000083_dist_ag_v7x_xy2x2_x_m256_n256_bf16_1_alg».proof.Proof.Gen.Kernel.Points
import proofs.«900082_g7700000000000083_dist_ag_v7x_xy2x2_x_m256_n256_bf16_1_alg».proof.Proof.Gen.Kernel.Frame
import proofs.«900082_g7700000000000083_dist_ag_v7x_xy2x2_x_m256_n256_bf16_1_alg».proof.Proof.Gen.KernelIdeal
import proofs.«900082_g7700000000000083_dist_ag_v7x_xy2x2_x_m256_n256_bf16_1_alg».proof.Proof.Gen.KernelIdeal.Skeleton
import proofs.«900082_g7700000000000083_dist_ag_v7x_xy2x2_x_m256_n256_bf16_1_alg».proof.Proof.Gen.KernelIdeal.Launch
import proofs.«900082_g7700000000000083_dist_ag_v7x_xy2x2_x_m256_n256_bf16_1_alg».proof.Proof.Gen.KernelIdeal.Points
import proofs.«900082_g7700000000000083_dist_ag_v7x_xy2x2_x_m256_n256_bf16_1_alg».proof.Proof.Gen.KernelIdeal.Frame
import proofs.«900082_g7700000000000083_dist_ag_v7x_xy2x2_x_m256_n256_bf16_1_alg».proof.Proof.Gen.ReferenceIdeal
import proofs.«900082_g7700000000000083_dist_ag_v7x_xy2x2_x_m256_n256_bf16_1_alg».proof.Proof.Gen.ReferenceIdeal.Run
import proofs.«900082_g7700000000000083_dist_ag_v7x_xy2x2_x_m256_n256_bf16_1_alg».proof.Proof.Gen.ReferenceIdeal.Read
import proofs.«900082_g7700000000000083_dist_ag_v7x_xy2x2_x_m256_n256_bf16_1_alg».proof.Proof.Gen.Pre_finite_inputs_Kernel
import proofs.«900082_g7700000000000083_dist_ag_v7x_xy2x2_x_m256_n256_bf16_1_alg».proof.Proof.Gen.Pre_finite_inputs_ReferenceIdeal
import proofs.«900082_g7700000000000083_dist_ag_v7x_xy2x2_x_m256_n256_bf16_1_alg».proof.Proof.KernelLaunch
import proofs.«900082_g7700000000000083_dist_ag_v7x_xy2x2_x_m256_n256_bf16_1_alg».proof.Proof.KernelIdealLaunch
import proofs.«900082_g7700000000000083_dist_ag_v7x_xy2x2_x_m256_n256_bf16_1_alg».proof.Proof.Value
import Idealize.ShloMosaic.Adequacy
import Idealize.ShloMosaic.Init

noncomputable section

namespace Cert.Proof

open Idealize.ShloMosaic Idealize.SL.Sem

/-- The kernel as printed runs, and each device's argument block ends as it was. -/
theorem frame_k : Cert.frame_Kernel := fun m ρ _ =>
  (θ_run Cert.Kernel.defs _ _).mono (fun _ h c => (h c 0).trans (Cert.Kernel.Ag.finalA_x m ρ c))
    (Cert.Kernel.Ag.run_main (F := Bits) m ρ)

/-- The same of the idealized kernel. -/
theorem frame_ki : Cert.frame_KernelIdeal := fun m ρ _ =>
  (θ_run Cert.KernelIdeal.defs _ _).mono (fun _ h c => (h c 0).trans (Cert.KernelIdeal.Ag.finalA_x m ρ c))
    (Cert.KernelIdeal.Ag.run_main (F := Ideal) m ρ)

/-- The reference's one host operation runs and leaves its argument as it was. -/
theorem frame_r : Cert.frame_ReferenceIdeal := fun m ρ _ =>
  (θ_run Cert.ReferenceIdeal.defs _ _).mono (fun _ h c => (h c).2) (Cert.ReferenceIdeal.Value.run (F := Ideal) m ρ)

/-- Every device's result array ends at the whole argument array converted, which is the reference's result. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨?_, (h c 0).trans (Cert.KernelIdeal.Ag.finalA_x m ρ c)⟩)
    (Cert.KernelIdeal.Ag.run_main (F := Ideal) m ρ)
  exact ((h c 1).trans (Cert.KernelIdeal.Ag.final_out m ρ c)).trans (Cert.KernelIdeal.Ag.outAt_whole m ρ _ hagree c)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_r, trivial, algebraic⟩

end Cert.Proof

end
